-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512x512 : Shape := ⟨3, ![64, 512, 512]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x1 .f32) (main_arg13 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S64x512x128 .f32) (main_arg1 : FVec F S64x512x512 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S64x512x128 : Shape := ⟨3, ![64, 512, 128]⟩
abbrev S64x512x512 : Shape := ⟨3, ![64, 512, 512]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x1 : Shape := ⟨2, ![1, 1]⟩
abbrev S1x128 : Shape := ⟨2, ![1, 128]⟩
abbrev S64x1x128 : Shape := ⟨3, ![64, 1, 128]⟩
abbrev S1x512x128 : Shape := ⟨3, ![1, 512, 128]⟩
abbrev S1x512x512 : Shape := ⟨3, ![1, 512, 512]⟩
abbrev S1x1x128 : Shape := ⟨3, ![1, 1, 128]⟩
abbrev S512x512 : Shape := ⟨2, ![512, 512]⟩
abbrev S512x128 : Shape := ⟨2, ![512, 128]⟩
abbrev S64x1x1 : Shape := ⟨3, ![64, 1, 1]⟩
abbrev S64x1 : Shape := ⟨2, ![64, 1]⟩

abbrev nBuf : Space → Nat
  | .hbm => 30
  | .vmem => 18
  | .smem => 0
  | _ => 0

abbrev bufTy : (tb : Table) → Fin (tcTables nBuf tb) → BufTy
  | .hbm, ⟨0, _⟩ => ⟨S64x512x128, .f32⟩
  | .hbm, ⟨1, _⟩ => ⟨S64x512x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S1, .i32⟩
  | .hbm, ⟨19, _⟩ => ⟨S128x128, .f32⟩
  | .hbm, ⟨20, _⟩ => ⟨S1x1, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S64x1x128, .f32⟩
  | .hbm, ⟨28, _⟩ => ⟨S64x1x1, .f32⟩
  | .hbm, ⟨29, _⟩ => ⟨S64x1, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x1x128, .f32⟩
  | .local _ .vmem, ⟨17, _⟩ => ⟨S1x1x128, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  shapeCasts_S1_S1x1 : S1.ShapeCasts S1x1
  bcast_S1x1_S1x128_0_1 : S1x1.BroadcastsInDim S1x128 (![0, 1] : Fin 2 → Fin S1x128.rank)
  shapeCasts_S128_S1x128 : S128.ShapeCasts S1x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S128 : S512x128.Reduces [0] S128
  shapeCasts_S128x128_S128x128 : S128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S64x1x128_S64x1x1_0_0_0 : S64x1x128.Slices ![0, 0, 0] S64x1x1
  shapeCasts_S64x1x1_S64x1 : S64x1x1.ShapeCasts S64x1
  scatter_S128x128_S1_S128_0_1_1_0_wf : ScatterDims.WF S128x128 S1 S128 [0] [1] [1] 0
  dot_S512x128_S128x128_S512x128_1_0_0_1_n_n_wf : DotDims.WF S512x128 S128x128 S512x128 [1] [0] [0] [1] [] []
  dot_S512x512_S512x128_S512x128_1_0_0_1_n_n_wf : DotDims.WF S512x512 S512x128 S512x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S64x512x128.size a
  hwx0_0 : ∀ i : grid0.Coords, EltTy.bits .f32 = 32 ∨ (Rect.block (s := S64x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x128.size a ≤ S64x1x128.size a
  hwx0_14 : ∀ i : grid0.Coords, EltTy.bits .f32 = 32 ∨ (Rect.block (s := S64x1x128) S1x1x128.size (cc0_transform_14 i) (hinb0_14 i)).WholeWords (EltTy.packing .f32)

variable [Facts₀]

def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512x512 : Shape := ⟨3, ![64, 512, 512]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1x128 : Shape := ⟨3, ![1, 1, 128]⟩
abbrev S_ : Shape := ⟨0, ![]⟩
abbrev S64x128 : Shape := ⟨2, ![64, 128]⟩
abbrev S1x128 : Shape := ⟨2, ![1, 128]⟩
abbrev S64x1 : Shape := ⟨2, ![64, 1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S64x512x128, .f32⟩
  | .hbm, ⟨15, _⟩ => ⟨S64x512x128, .f32⟩
  | .hbm, ⟨16, _⟩ => ⟨S1x1x128, .f32⟩
  | .hbm, ⟨17, _⟩ => ⟨S64x512x128, .f32⟩
  | .hbm, ⟨18, _⟩ => ⟨S64x512x128, .f32⟩
  | .hbm, ⟨19, _⟩ => ⟨S_, .f32⟩
  | .hbm, ⟨20, _⟩ => ⟨S64x512x128, .f32⟩
  | .hbm, ⟨21, _⟩ => ⟨S64x512x128, .f32⟩
  | .hbm, ⟨22, _⟩ => ⟨S64x512x128, .f32⟩
  | .hbm, ⟨23, _⟩ => ⟨S64x512x128, .f32⟩
  | .hbm, ⟨24, _⟩ => ⟨S1x1x128, .f32⟩
  | .hbm, ⟨25, _⟩ => ⟨S64x512x128, .f32⟩
  | .hbm, ⟨26, _⟩ => ⟨S64x512x128, .f32⟩
  | .hbm, ⟨27, _⟩ => ⟨S_, .f32⟩
  | .hbm, ⟨28, _⟩ => ⟨S64x512x128, .f32⟩
  | .hbm, ⟨29, _⟩ => ⟨S64x512x128, .f32⟩
  | .hbm, ⟨30, _⟩ => ⟨S64x512x128, .f32⟩
  | .hbm, ⟨31, _⟩ => ⟨S64x512x128, .f32⟩
  | .hbm, ⟨32, _⟩ => ⟨S1x1x128, .f32⟩
  | .hbm, ⟨33, _⟩ => ⟨S64x512x128, .f32⟩
  | .hbm, ⟨34, _⟩ => ⟨S64x512x128, .f32⟩
  | .hbm, ⟨35, _⟩ => ⟨S_, .f32⟩
  | .hbm, ⟨36, _⟩ => ⟨S64x512x128, .f32⟩
  | .hbm, ⟨37, _⟩ => ⟨S64x512x128, .f32⟩
  | .hbm, ⟨38, _⟩ => ⟨S_, .f32⟩
  | .hbm, ⟨39, _⟩ => ⟨S64x128, .f32⟩
  | .hbm, ⟨40, _⟩ => ⟨S64x128, .f32⟩
  | .hbm, ⟨41, _⟩ => ⟨S1x128, .f32⟩
  | .hbm, ⟨42, _⟩ => ⟨S64x128, .f32⟩
  | .hbm, ⟨43, _⟩ => ⟨S64x128, .f32⟩
  | .hbm, ⟨44, _⟩ => ⟨S64x128, .f32⟩
  | .hbm, ⟨45, _⟩ => ⟨S1x128, .f32⟩
  | .hbm, ⟨46, _⟩ => ⟨S64x128, .f32⟩
  | .hbm, ⟨47, _⟩ => ⟨S64x128, .f32⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S64x1, .f32⟩
  | .hbm, ⟨52, _⟩ => ⟨S1x1, .f32⟩
  | .hbm, ⟨53, _⟩ => ⟨S64x1, .f32⟩
  | .hbm, ⟨54, _⟩ => ⟨S64x1, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S_, .f32⟩
  | .hbm, ⟨61, _⟩ => ⟨S64x1, .f32⟩
  | .hbm, ⟨62, _⟩ => ⟨S64x1, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call3_cst : Ref sig .tc := ⟨.hbm, 48, rfl⟩
abbrev main_call3_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_0 : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S64x512x128_0_1_2 : S1x1x128.BroadcastsInDim S64x512x128 (![0, 1, 2] : Fin 3 → Fin S64x512x128.rank)
  bcast_S_S64x512x128 : S_.BroadcastsInDim S64x512x128 (![] : Fin 0 → Fin S64x512x128.rank)
  reducesTo_S64x512x128_S64x128_d1 : S64x512x128.ReducesTo [1] S64x128
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x512x128_S128x128_S64x512x128_2_0_01_1_n_n_wf : DotDims.WF S64x512x128 S128x128 S64x512x128 [2] [0] [0, 1] [1] [] []
  dot_S64x512x512_S64x512x128_S64x512x128_2_1_1_2_0_0_wf : DotDims.WF S64x512x512 S64x512x128 S64x512x128 [2] [1] [1] [2] [0] [0]
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def dot_S64x512x128_S128x128_S64x512x128_2_0_01_1_n_n : DotDims S64x512x128 S128x128 S64x512x128 where
  lhsContracting := [2]
  rhsContracting := [0]
  lhsNonContracting := [0, 1]
  rhsNonContracting := [1]
  lhsBatch := []
  rhsBatch := []
  wf := dot_S64x512x128_S128x128_S64x512x128_2_0_01_1_n_n_wf
def dot_S64x512x512_S64x512x128_S64x512x128_2_1_1_2_0_0 : DotDims S64x512x512 S64x512x128 S64x512x128 where
  lhsContracting := [2]
  rhsContracting := [1]
  lhsNonContracting := [1]
  rhsNonContracting := [2]
  lhsBatch := [0]
  rhsBatch := [0]
  wf := dot_S64x512x512_S64x512x128_S64x512x128_2_1_1_2_0_0_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.GcnSpec.lean ====
/-
  The mathematics both programs compute, for ONE graph of the batch, over the extended reals.

  A graph has 512 nodes with 128 features each (`X`), and a 512 × 512 adjacency matrix `A`.  A graph-convolution
  layer sends node features `H` to `relu (A · (H · W) + bias)`: first every node's features go through the weight
  matrix, then every node gathers its neighbours' results, the bias row is added to every node, and negative
  entries are cut to zero.  Three such layers are followed by a sum over the nodes (one 128-vector per graph),
  a linear read-out, a linear layer with relu, and a last linear layer of ONE output passed through the logistic
  function: the graph's score.

  Everything is a finite sum of products, a maximum with zero, or the logistic function, so the order of a sum
  never matters here (addition of extended reals is commutative and associative) and no law of the reals that
  fails at an infinity is used.
-/
import Idealize.ShloMosaic.PureOps.Ideal
import Idealize.ShloMosaic.Lib.ValueIdx

noncomputable section

open scoped BigOperators

namespace Cert.Gcn

open Idealize.ShloMosaic Idealize.ShloMosaic.ValueIdx

/-- A rank-2 array read as a matrix. -/
abbrev mat {a b : Nat} (M : (⟨2, ![a, b]⟩ : Shape).Idx → EReal) : Fin a → Fin b → EReal := fun i j => M (ix2 i j)

/-- The one row of a `[1, b]` array read as a vector. -/
abbrev row {b : Nat} (v : (⟨2, ![1, b]⟩ : Shape).Idx → EReal) : Fin b → EReal := fun f => v (ix2 (0 : Fin 1) f)

/-- A rank-1 array read as a vector. -/
abbrev vec {b : Nat} (v : (⟨1, ![b]⟩ : Shape).Idx → EReal) : Fin b → EReal := fun f => v (ix1 f)

/-- Graph `g` of a batched rank-3 array, read as a matrix. -/
abbrev slab {n a b : Nat} (M : (⟨3, ![n, a, b]⟩ : Shape).Idx → EReal) (g : Fin n) : Fin a → Fin b → EReal :=
  fun i j => M (ix3 g i j)

/-- One graph-convolution layer on one graph: `relu (A · (H · W) + bias)`, entry by entry. -/
def layer (A : Fin 512 → Fin 512 → EReal) (W : Fin 128 → Fin 128 → EReal) (bias : Fin 128 → EReal)
    (H : Fin 512 → Fin 128 → EReal) : Fin 512 → Fin 128 → EReal :=
  fun i f => max ((∑ j : Fin 512, A i j * ∑ d : Fin 128, H j d * W d f) + bias f) 0

/-- The sum of the node features over the graph's nodes. -/
def pool (H : Fin 512 → Fin 128 → EReal) : Fin 128 → EReal := fun f => ∑ n : Fin 512, H n f

/-- A linear layer on a 128-vector: `g · W + bias`. -/
def dense (g : Fin 128 → EReal) (W : Fin 128 → Fin 128 → EReal) (bias : Fin 128 → EReal) : Fin 128 → EReal :=
  fun f => (∑ k : Fin 128, g k * W k f) + bias f

/-- Negative entries cut to zero. -/
def relu (v : Fin 128 → EReal) : Fin 128 → EReal := fun f => max (v f) 0

/-- The 128-vector that enters the last linear layer: three graph-convolution layers, the sum over nodes, the
    read-out, and the first layer of the head with its relu. -/
def hidden (X : Fin 512 → Fin 128 → EReal) (A : Fin 512 → Fin 512 → EReal)
    (W0 : Fin 128 → Fin 128 → EReal) (b0 : Fin 128 → EReal) (W1 : Fin 128 → Fin 128 → EReal) (b1 : Fin 128 → EReal)
    (W2 : Fin 128 → Fin 128 → EReal) (b2 : Fin 128 → EReal) (Wr : Fin 128 → Fin 128 → EReal) (br : Fin 128 → EReal)
    (Wf : Fin 128 → Fin 128 → EReal) (bf : Fin 128 → EReal) : Fin 128 → EReal :=
  relu (dense (dense (pool (layer A W2 b2 (layer A W1 b1 (layer A W0 b0 X)))) Wr br) Wf bf)

/-- The graph's score: the hidden vector against the last layer's ONE weight column `wl`, plus its bias `bl`,
    through the logistic function. -/
def score (h : Fin 128 → EReal) (wl : Fin 128 → EReal) (bl : EReal) : EReal :=
  Ideal.logistic ((∑ k : Fin 128, h k * wl k) + bl)

end Cert.Gcn

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.GcnOps.lean ====
/-
  The kernel's vector operations, read as matrices.

  Each statement takes an array expression built from the operations one grid step applies to its blocks — a
  matrix product into a zero accumulator, a bias row broadcast over the rows, a maximum with a zero splat, a sum
  down the rows — and reads it entry by entry as the function of `GcnSpec`.  They are stated for ANY dimension
  record of a plain product, so they serve every product of the step at its own sizes.
-/
import proofs.«111874_g85968065397282_cont_sun_m_961_2_alg».proof.Proof.GcnSpec
import proofs.«111874_g85968065397282_cont_sun_m_961_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.Gcn

open Idealize.ShloMosaic Idealize.ShloMosaic.ValueIdx PlainDot

/-- The f32 zero splat is the extended real zero at every entry. -/
theorem zero_splat_apply {s : Shape} (i : s.Idx) :
    broadcast s (Scalar.ofBits (F := Ideal) .f32 0x00000000#32) i = (0 : EReal) :=
  Ideal.ofBits_zero_f32

/-- ONE GRAPH-CONVOLUTION LAYER of the step: `max (A · (H · W) + bias row, 0)` on blocks, read as `layer`. -/
theorem layer_mat {dA : DotDims ⟨2, ![512, 512]⟩ ⟨2, ![512, 128]⟩ ⟨2, ![512, 128]⟩} (hA : IsPlain dA)
    {dW : DotDims ⟨2, ![512, 128]⟩ ⟨2, ![128, 128]⟩ ⟨2, ![512, 128]⟩} (hW : IsPlain dW)
    (A : FVec Ideal ⟨2, ![512, 512]⟩ .f32) (H : FVec Ideal ⟨2, ![512, 128]⟩ .f32) (W : FVec Ideal ⟨2, ![128, 128]⟩ .f32)
    (b : FVec Ideal ⟨2, ![1, 128]⟩ .f32) (hc : (⟨2, ![1, 128]⟩ : Shape).ShapeCasts ⟨2, ![1, 128]⟩)
    (hb : (⟨2, ![1, 128]⟩ : Shape).Broadcasts ⟨2, ![512, 128]⟩) :
    mat (maximumf (addf (matmul dA none A (matmul dW none H W (constant ⟨2, ![512, 128]⟩ .f32 0x00000000#32))
          (constant ⟨2, ![512, 128]⟩ .f32 0x00000000#32))
        (broadcastTo ⟨2, ![512, 128]⟩ (shapeCast ⟨2, ![1, 128]⟩ b hc) hb))
      (broadcast ⟨2, ![512, 128]⟩ (Scalar.ofBits (F := Ideal) .f32 0x00000000#32)))
    = layer (mat A) (mat W) (row b) (mat H) := by
  funext i f
  show maximumf _ _ (ix2 i f) = _
  rw [maximumf_apply, addf_apply, zero_splat_apply, matmul_zero_apply hA, broadcastTo_1b_ab_apply, shapeCast_self]
  simp only [matmul_zero_apply hW]
  rfl

/-- THE SUM OVER THE NODES, kept as a one-row array: entry `f` of the row is the sum of column `f`. -/
theorem pool_row (H : FVec Ideal ⟨2, ![512, 128]⟩ .f32) (hr : (⟨2, ![512, 128]⟩ : Shape).Reduces [0] ⟨1, ![128]⟩)
    (hφ : FKind.Formats .f32) (hacc : (0x00000000#32 : BitVec 32) = 0x00000000#32)
    (hc : (⟨1, ![128]⟩ : Shape).ShapeCasts ⟨2, ![1, 128]⟩) :
    row (shapeCast ⟨2, ![1, 128]⟩ (multiReduction .add [0] ⟨1, ![128]⟩ H 0x00000000#32 hr hφ hacc) hc) = pool (mat H) := by
  funext f
  show shapeCast _ _ _ (ix2 (0 : Fin 1) f) = _
  rw [shapeCast_a_1a_apply]
  refine (Ideal.multiReduction_add_single H 0x00000000#32 hr hφ hacc (ix1 f)).trans ?_
  refine Finset.sum_congr rfl fun n _ => ?_
  refine congrArg H (funext fun a => Fin.ext ?_)
  match a with
  | ⟨0, _⟩ => rfl
  | ⟨1, _⟩ => rfl

/-- A LINEAR LAYER on a one-row array: `g · W + bias row`, read as `dense`. -/
theorem dense_row {d : DotDims ⟨2, ![1, 128]⟩ ⟨2, ![128, 128]⟩ ⟨2, ![1, 128]⟩} (hd : IsPlain d)
    (g : FVec Ideal ⟨2, ![1, 128]⟩ .f32) (W : FVec Ideal ⟨2, ![128, 128]⟩ .f32) (b : FVec Ideal ⟨2, ![1, 128]⟩ .f32)
    (hc : (⟨2, ![1, 128]⟩ : Shape).ShapeCasts ⟨2, ![1, 128]⟩) :
    row (addf (matmul d none g W (constant ⟨2, ![1, 128]⟩ .f32 0x00000000#32)) (shapeCast ⟨2, ![1, 128]⟩ b hc))
    = dense (row g) (mat W) (row b) := by
  funext f
  show addf _ _ (ix2 (0 : Fin 1) f) = _
  rw [addf_apply, matmul_zero_apply hd, shapeCast_self]
  rfl

/-- The maximum with the zero splat on a one-row array is `relu`. -/
theorem relu_row (v : FVec Ideal ⟨2, ![1, 128]⟩ .f32) :
    row (maximumf v (broadcast ⟨2, ![1, 128]⟩ (Scalar.ofBits (F := Ideal) .f32 0x00000000#32))) = relu (row v) := by
  funext f
  show maximumf _ _ (ix2 (0 : Fin 1) f) = _
  rw [maximumf_apply, zero_splat_apply]
  rfl

end Cert.Gcn

end
-- ==== Proof.KernelPay.lean ====
/-
  What one grid step of the kernel computes from its blocks.

  The step's arithmetic is two pure terms of the blocks it loads: the three graph-convolution layers (a
  512 × 128 array), and the head applied to the node sum of that array (a 1 × 1 × 128 block).  Read entry by entry
  they are `GcnSpec`'s functions of the blocks: the layers are `layer` three times over, with the graph's one
  adjacency block and one feature block; the head's entry `q` is the logistic function of entry `q` of a linear
  layer of the hidden vector.
-/
import proofs.«111874_g85968065397282_cont_sun_m_961_2_alg».proof.Proof.Gen.KernelIdeal.Skeleton
import proofs.«111874_g85968065397282_cont_sun_m_961_2_alg».proof.Proof.GcnOps

noncomputable section

open scoped BigOperators

namespace Cert.KernelIdeal.Hand

open Idealize.ShloMosaic Idealize.ShloMosaic.ValueIdx Cert.KernelIdeal Cert.KernelIdeal.Gen Cert.Gcn

/-- The step's three kinds of matrix product are plain ones: rows against columns, nothing batched. -/
theorem plainA : PlainDot.IsPlain dot_S512x512_S512x128_S512x128_1_0_0_1_n_n := ⟨rfl, rfl, rfl, rfl, rfl, rfl⟩
theorem plainW : PlainDot.IsPlain dot_S512x128_S128x128_S512x128_1_0_0_1_n_n := ⟨rfl, rfl, rfl, rfl, rfl, rfl⟩
theorem plainR : PlainDot.IsPlain dot_S1x128_S128x128_S1x128_1_0_0_1_n_n := ⟨rfl, rfl, rfl, rfl, rfl, rfl⟩

/-- A `[1, a, b]` block viewed as `[a, b]` is the block's one slab. -/
theorem mat_dropUnit {a b : Nat} (x : (⟨3, ![1, a, b]⟩ : Shape).Idx → EReal)
    (h : (⟨3, ![1, a, b]⟩ : Shape).ShapeCasts ⟨2, ![a, b]⟩) :
    mat (shapeCast ⟨2, ![a, b]⟩ x h) = slab x (0 : Fin 1) := by
  funext i j
  exact shapeCast_1ab_ab_apply x h i j

/-- THE THREE LAYERS of a step, read as matrices: `layer` three times over the graph's adjacency block `v0` and
    feature block `v2`, with the three weight blocks and bias rows in order. -/
theorem pay2_mat (v0 : Vec Ideal S1x512x512 .f32) (v2 : Vec Ideal S1x512x128 .f32) (v4 : Vec Ideal S128x128 .f32)
    (v7 : Vec Ideal S1x128 .f32) (v13 : Vec Ideal S128x128 .f32) (v16 : Vec Ideal S1x128 .f32)
    (v22 : Vec Ideal S128x128 .f32) (v25 : Vec Ideal S1x128 .f32) :
    mat (k0_pay2 (F := Ideal) v0 v2 v4 v7 v13 v16 v22 v25)
      = layer (slab v0 0) (mat v22) (row v25) (layer (slab v0 0) (mat v13) (row v16) (layer (slab v0 0) (mat v4) (row v7) (slab v2 0))) := by
  unfold k0_pay2
  dsimp only
  rw [layer_mat plainA plainW, layer_mat plainA plainW, layer_mat plainA plainW, mat_dropUnit, mat_dropUnit]

/-- THE HEAD of a step at entry `q` of its one row: the node sum of the layers' result `v30` through the read-out,
    the first head layer with its relu, and the last linear layer, then the logistic function. -/
theorem pay1_apply (v30 : FVec Ideal S512x128 .f32) (v33 : Vec Ideal S128x128 .f32) (v35 : Vec Ideal S1x128 .f32)
    (v38 : Vec Ideal S128x128 .f32) (v40 : Vec Ideal S1x128 .f32) (v45 : Vec Ideal S128x128 .f32) (v48 : Vec Ideal S1x128 .f32)
    (u v : Fin 1) (q : Fin 128) :
    k0_pay1 (F := Ideal) v30 v33 v35 v38 v40 v45 v48 (ix3 u v q)
      = Ideal.logistic (dense (relu (dense (dense (pool (mat v30)) (mat v33) (row v35)) (mat v38) (row v40))) (mat v45) (row v48) q) := by
  obtain rfl : v = 0 := Subsingleton.elim _ _
  unfold k0_pay1
  dsimp only
  rw [shapeCast_ab_1ab_apply]
  show Ideal.logistic (row (addf _ _ : FVec Ideal S1x128 .f32) q) = _
  rw [dense_row plainR, relu_row, dense_row plainR, dense_row plainR, pool_row, shapeCast_self]

end Cert.KernelIdeal.Hand

end
-- ==== Proof.KernelBlocks.lean ====
/-
  The blocks a grid step is called with, read off the arrays.

  The grid has one point per graph.  At point `t` the feature window, the adjacency window and the output window
  hold block `(t, 0, 0)` of their arrays — the graph's own slab —, and every weight and bias window holds block
  `(0, 0)`, which is its whole array: the same for every graph.
-/
import proofs.«111874_g85968065397282_cont_sun_m_961_2_alg».proof.Proof.Gen.KernelIdeal.Frame
import proofs.«111874_g85968065397282_cont_sun_m_961_2_alg».proof.Proof.GcnSpec

noncomputable section

open Idealize.ShloMosaic Idealize.ShloMosaic.TcCoe Idealize.SL.Sem Idealize.ShloMosaic.ValueIdx

namespace Cert.KernelIdeal.Hand

open Cert.KernelIdeal Cert.KernelIdeal.Gen Cert.Gcn

variable (m : (ℓ : Loc nD τ sig) → Buf (Elt Ideal) ℓ)

/-- The printed index maps, decided over the grid: the three batched windows move with the point along the
    graph axis and stay at zero on the others; the eleven shared windows never move. -/
theorem idx_batched : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_14.index t (0 : Fin 3) = t.val ∧ win0_14.index t (1 : Fin 3) = 0 ∧ win0_14.index t (2 : Fin 3) = 0) :=
  (by decide +kernel : ∀ t : Fin grid0.N, _)

theorem idx_shared : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The feature block at point `t` is graph `t`'s slab of the feature array. -/
theorem blk_x (c : Dev nD) (t : Fin cfg0.N) (ht : t.val < 64) :
    slab (iblk m c 0 t : S1x512x128.Idx → EReal) (0 : Fin 1) = slab (V m c main_arg0 : S64x512x128.Idx → EReal) ⟨t.val, ht⟩ := by
  obtain ⟨⟨e0, e1, e2⟩, -, -⟩ := idx_batched t
  funext n d
  show V m c main_arg0 (((cfg0.win 0).blk t).view.emb (ix3 (0 : Fin 1) n d)) = V m c main_arg0 (ix3 ⟨t.val, ht⟩ n d)
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 128 + 1 * d.val = d.val; omega

/-- The adjacency block at point `t` is graph `t`'s slab of the adjacency array. -/
theorem blk_adj (c : Dev nD) (t : Fin cfg0.N) (ht : t.val < 64) :
    slab (iblk m c 1 t : S1x512x512.Idx → EReal) (0 : Fin 1) = slab (V m c main_arg1 : S64x512x512.Idx → EReal) ⟨t.val, ht⟩ := by
  obtain ⟨-, ⟨e0, e1, e2⟩, -⟩ := idx_batched t
  funext n d
  show V m c main_arg1 (((cfg0.win 1).blk t).view.emb (ix3 (0 : Fin 1) n d)) = V m c main_arg1 (ix3 ⟨t.val, ht⟩ n d)
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * n.val = n.val; omega
  | ⟨2, _⟩ => show win0_1.index t (2 : Fin 3) * 512 + 1 * d.val = d.val; omega

/-- Entry `(u, v, q)` of the output block at point `t` is entry `(t, 0, q)` of the output array. -/
theorem emb_out (t : Fin cfg0.N) (ht : t.val < 64) (u v : Fin 1) (q : Fin 128) :
    ((cfg0.win 14).blk t).view.emb (ix3 u v q) = ix3 (⟨t.val, ht⟩ : Fin 64) (0 : Fin 1) q := by
  obtain ⟨-, -, ⟨e0, e1, e2⟩⟩ := idx_batched t
  funext a; apply Fin.ext
  match a with
  | ⟨0, _⟩ => show win0_14.index t (0 : Fin 3) * 1 + 1 * u.val = t.val; omega
  | ⟨1, _⟩ => show win0_14.index t (1 : Fin 3) * 1 + 1 * v.val = 0; omega
  | ⟨2, _⟩ => show win0_14.index t (2 : Fin 3) * 128 + 1 * q.val = q.val; omega

/-- Each shared window's block is its whole array, at every point. -/
theorem blk_w0 (c : Dev nD) (t : Fin cfg0.N) : (iblk m c 2 t : S128x128.Idx → EReal) = (V m c main_arg2 : S128x128.Idx → EReal) := by
  obtain ⟨⟨e0, e1⟩, -⟩ := idx_shared t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blk_w1 (c : Dev nD) (t : Fin cfg0.N) : (iblk m c 3 t : S128x128.Idx → EReal) = (V m c main_arg4 : S128x128.Idx → EReal) := by
  obtain ⟨-, ⟨e0, e1⟩, -⟩ := idx_shared t
  funext y
  show V m c main_arg4 (((cfg0.win 3).blk t).view.emb y) = V m c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blk_w2 (c : Dev nD) (t : Fin cfg0.N) : (iblk m c 4 t : S128x128.Idx → EReal) = (V m c main_arg6 : S128x128.Idx → EReal) := by
  obtain ⟨-, -, ⟨e0, e1⟩, -⟩ := idx_shared t
  funext y
  show V m c main_arg6 (((cfg0.win 4).blk t).view.emb y) = V m c main_arg6 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk_b0 (c : Dev nD) (t : Fin cfg0.N) : (iblk m c 5 t : S1x128.Idx → EReal) = (V m c main_v6 : S1x128.Idx → EReal) := by
  obtain ⟨-, -, -, ⟨e0, e1⟩, -⟩ := idx_shared t
  funext y
  show V m c main_v6 (((cfg0.win 5).blk t).view.emb y) = V m c main_v6 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega
theorem blk_b1 (c : Dev nD) (t : Fin cfg0.N) : (iblk m c 6 t : S1x128.Idx → EReal) = (V m c main_v7 : S1x128.Idx → EReal) := by
  obtain ⟨-, -, -, -, ⟨e0, e1⟩, -⟩ := idx_shared t
  funext y
  show V m c main_v7 (((cfg0.win 6).blk t).view.emb y) = V m c main_v7 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega
theorem blk_b2 (c : Dev nD) (t : Fin cfg0.N) : (iblk m c 7 t : S1x128.Idx → EReal) = (V m c main_v8 : S1x128.Idx → EReal) := by
  obtain ⟨-, -, -, -, -, ⟨e0, e1⟩, -⟩ := idx_shared t
  funext y
  show V m c main_v8 (((cfg0.win 7).blk t).view.emb y) = V m c main_v8 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega
theorem blk_wr (c : Dev nD) (t : Fin cfg0.N) : (iblk m c 8 t : S128x128.Idx → EReal) = (V m c main_arg8 : S128x128.Idx → EReal) := by
  obtain ⟨-, -, -, -, -, -, ⟨e0, e1⟩, -⟩ := idx_shared t
  funext y
  show V m c main_arg8 (((cfg0.win 8).blk t).view.emb y) = V m c main_arg8 y
  refine congrArg _ (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega
theorem blk_br (c : Dev nD) (t : Fin cfg0.N) : (iblk m c 9 t : S1x128.Idx → EReal) = (V m c main_v9 : S1x128.Idx → EReal) := by
  obtain ⟨-, -, -, -, -, -, -, ⟨e0, e1⟩, -⟩ := idx_shared t
  funext y
  show V m c main_v9 (((cfg0.win 9).blk t).view.emb y) = V m c main_v9 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega
theorem blk_wf (c : Dev nD) (t : Fin cfg0.N) : (iblk m c 10 t : S128x128.Idx → EReal) = (V m c main_arg10 : S128x128.Idx → EReal) := by
  obtain ⟨-, -, -, -, -, -, -, -, ⟨e0, e1⟩, -⟩ := idx_shared t
  funext y
  show V m c main_arg10 (((cfg0.win 10).blk t).view.emb y) = V m c main_arg10 y
  refine congrArg _ (funext fun a => Fin.ext ?_)
  match a with
  | ⟨0, _⟩ => show win0_10.index t (0 : Fin 2) * 128 + 1 * (y 0).val = (y 0).val; omega
  | ⟨1, _⟩ => show win0_10.index t (1 : Fin 2) * 128 + 1 * (y 1).val = (y 1).val; omega
theorem blk_bf (c : Dev nD) (t : Fin cfg0.N) : (iblk m c 11 t : S1x128.Idx → EReal) = (V m c main_v10 : S1x128.Idx → EReal) := by
  obtain ⟨-, -, -, -, -, -, -, -, -, ⟨e0, e1⟩, -⟩ := idx_shared t
  funext y
  show V m c main_v10 (((cfg0.win 11).blk t).view.emb y) = V m c main_v10 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega
theorem blk_wl (c : Dev nD) (t : Fin cfg0.N) : (iblk m c 12 t : S128x128.Idx → EReal) = (V m c main_v3 : S128x128.Idx → EReal) := by
  obtain ⟨-, -, -, -, -, -, -, -, -, -, ⟨e0, e1⟩, -⟩ := idx_shared t
  funext y
  show V m c main_v3 (((cfg0.win 12).blk t).view.emb y) = V m c main_v3 y
  refine congrArg _ (funext fun a => Fin.ext ?_)
  match a with
  | ⟨0, _⟩ => show win0_12.index t (0 : Fin 2) * 128 + 1 * (y 0).val = (y 0).val; omega
  | ⟨1, _⟩ => show win0_12.index t (1 : Fin 2) * 128 + 1 * (y 1).val = (y 1).val; omega
theorem blk_bl (c : Dev nD) (t : Fin cfg0.N) : (iblk m c 13 t : S1x128.Idx → EReal) = (V m c main_v5 : S1x128.Idx → EReal) := by
  obtain ⟨-, -, -, -, -, -, -, -, -, -, -, ⟨e0, e1⟩⟩ := idx_shared t
  funext y
  show V m c main_v5 (((cfg0.win 13).blk t).view.emb y) = V m c main_v5 y
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

end Cert.KernelIdeal.Hand

end
-- ==== Proof.GcnScore.lean ====
/-
  The result both programs end with, as ONE function of the fourteen argument arrays: a `[64, 1]` array whose
  entry `(g, 0)` is the score of graph `g` — `GcnSpec`'s `score` of the graph's hidden vector, computed from the
  graph's own feature and adjacency slabs and the shared weights, against the one column of the last weight
  matrix and its one bias.
-/
import proofs.«111874_g85968065397282_cont_sun_m_961_2_alg».proof.Proof.GcnSpec

noncomputable section

namespace Cert.Gcn

open Idealize.ShloMosaic Idealize.ShloMosaic.ValueIdx

/-- Graph `g`'s hidden vector from the argument arrays. -/
abbrev hiddenOf (x : (⟨3, ![64, 512, 128]⟩ : Shape).Idx → EReal) (adj : (⟨3, ![64, 512, 512]⟩ : Shape).Idx → EReal)
    (w0 : (⟨2, ![128, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (wr : (⟨2, ![128, 128]⟩ : Shape).Idx → EReal) (br : (⟨1, ![128]⟩ : Shape).Idx → EReal)
    (wf : (⟨2, ![128, 128]⟩ : Shape).Idx → EReal) (bf : (⟨1, ![128]⟩ : Shape).Idx → EReal) (g : Fin 64) : Fin 128 → EReal :=
  hidden (slab x g) (slab adj g) (mat w0) (vec b0) (mat w1) (vec b1) (mat w2) (vec b2) (mat wr) (vec br) (mat wf) (vec bf)

/-- The whole result array. -/
def result (x : (⟨3, ![64, 512, 128]⟩ : Shape).Idx → EReal) (adj : (⟨3, ![64, 512, 512]⟩ : Shape).Idx → EReal)
    (w0 : (⟨2, ![128, 128]⟩ : Shape).Idx → EReal) (b0 : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (wr : (⟨2, ![128, 128]⟩ : Shape).Idx → EReal) (br : (⟨1, ![128]⟩ : Shape).Idx → EReal)
    (wf : (⟨2, ![128, 128]⟩ : Shape).Idx → EReal) (bf : (⟨1, ![128]⟩ : Shape).Idx → EReal)
    (wl : (⟨2, ![128, 1]⟩ : Shape).Idx → EReal) (bl : (⟨1, ![1]⟩ : Shape).Idx → EReal) :
    (⟨2, ![64, 1]⟩ : Shape).Idx → EReal :=
  fun i => score (hiddenOf x adj w0 b0 w1 b1 w2 b2 wr br wf bf (i 0))
    (fun k => wl (ix2 k (0 : Fin 1))) (bl (ix1 (0 : Fin 1)))

end Cert.Gcn

end
-- ==== Proof.LibScatterSet.lean ====
import Idealize.ShloMosaic.PureOps.ShapeOps
import Mathlib.Logic.Equiv.Defs

/-!
# A scatter whose combiner keeps the update

The host scatter is a left fold over the update indices in row-major order. Each step either
rewrites one element of the result (the one the update index lands on) or leaves the result
alone (the update index lands outside the operand). When the combiner returns its second
argument, the value found at a result index `i` after the whole fold is decided by the LAST
update index landing on `i`. Two consequences are proved here: if exactly one update index
lands on `i`, the result there is that update; if none does, the result there is the operand's
element.
-/

namespace Cert.Lib

open Idealize.ShloMosaic

section Fold

variable {ι σ α : Type}

/-- A left fold whose every step leaves an observed quantity `v` of the state alone: the
    observed quantity at the end is the one at the start. Here `P n` says "step `n` touches the
    observed quantity"; the hypothesis is that no element of the list does. -/
theorem foldl_obs_untouched (stp : σ → ι → σ) (v : σ → α) (P : ι → Prop)
    (hmiss : ∀ r n, ¬ P n → v (stp r n) = v r) :
    ∀ (L : List ι) (x : σ), (∀ n ∈ L, ¬ P n) → v (L.foldl stp x) = v x := by
  intro L
  induction L with
  | nil => intro x _; rfl
  | cons a L ih =>
    intro x h
    rw [List.foldl_cons, ih (stp x a) (fun n hn => h n (List.mem_cons_of_mem a hn)),
      hmiss x a (h a List.mem_cons_self)]

/-- A left fold over a list without repetitions in which exactly one element `n` touches the
    observed quantity `v`, setting it to `val n` whatever the state was: the observed quantity at
    the end is `val n`. Before `n` the state is arbitrary; at `n` the quantity becomes `val n`;
    after `n` nothing touches it, because any later element that did would equal `n`, and `n`
    does not occur twice. -/
theorem foldl_obs_set_once (stp : σ → ι → σ) (v : σ → α) (P : ι → Prop) (val : ι → α)
    (hhit : ∀ r n, P n → v (stp r n) = val n)
    (hmiss : ∀ r n, ¬ P n → v (stp r n) = v r) (n : ι) (hPn : P n) :
    ∀ (L : List ι) (x : σ), L.Nodup → n ∈ L → (∀ n' ∈ L, P n' → n' = n) →
      v (L.foldl stp x) = val n := by
  intro L
  induction L with
  | nil => intro x _ hmem; exact absurd hmem List.not_mem_nil
  | cons a L ih =>
    intro x hnd hmem huniq
    rw [List.foldl_cons]
    have hnd' := List.nodup_cons.1 hnd
    by_cases han : a = n
    · -- the head is the one touching element: the tail leaves the quantity alone
      subst han
      have htail : ∀ m ∈ L, ¬ P m := by
        intro m hm hPm
        have : m = a := huniq m (List.mem_cons_of_mem a hm) hPm
        exact hnd'.1 (this ▸ hm)
      rw [foldl_obs_untouched stp v P hmiss L (stp x a) htail, hhit x a hPn]
    · -- the touching element is in the tail
      have hmem' : n ∈ L := by
        rcases List.mem_cons.1 hmem with h | h
        · exact absurd h.symm han
        · exact h
      exact ih (stp x a) hnd'.2 hmem' (fun n' hn' => huniq n' (List.mem_cons_of_mem a hn'))

end Fold

section Scatter

variable {α : Type} {s si u : Shape} {w : Nat}

/-- One step of the scatter with the update-keeping combiner, read at a result index `i` the
    update index lands on: the update's element. -/
private theorem step_hit (d : ScatterDims s si u) (idx : IVec si w) (upd : u.Idx → α) (i : s.Idx)
    (r : s.Idx → α) (m : Fin u.numel) (h : d.resultIdx? (u.rowMajor.symm m) idx = some i) :
    (match d.resultIdx? (u.rowMajor.symm m) idx with
      | some j => fun i' => if i' = j then (fun (_ b : α) => b) (r j) (upd (u.rowMajor.symm m)) else r i'
      | none => r) i = upd (u.rowMajor.symm m) := by
  rw [h]
  exact if_pos rfl

/-- One step of the scatter, read at a result index `i` the update index does not land on: the
    element that was there. -/
private theorem step_miss (d : ScatterDims s si u) (idx : IVec si w) (upd : u.Idx → α) (i : s.Idx)
    (r : s.Idx → α) (m : Fin u.numel) (h : d.resultIdx? (u.rowMajor.symm m) idx ≠ some i) :
    (match d.resultIdx? (u.rowMajor.symm m) idx with
      | some j => fun i' => if i' = j then (fun (_ b : α) => b) (r j) (upd (u.rowMajor.symm m)) else r i'
      | none => r) i = r i := by
  generalize d.resultIdx? (u.rowMajor.symm m) idx = o at h
  cases o with
  | none => rfl
  | some j =>
    have hij : i ≠ j := fun e => h (by rw [e])
    exact if_neg hij

/-- A scatter whose combiner keeps the update, at a result index `i` on which exactly one
    update index `n` lands (`n` lands on `i`, and every update index landing on `i` is `n`): the
    result's element there is the update's element at `n`. -/
theorem scatter_set_hit (d : ScatterDims s si u) (x : s.Idx → α) (idx : IVec si w) (upd : u.Idx → α)
    (i : s.Idx) (n : u.Idx) (hn : d.resultIdx? n idx = some i)
    (huniq : ∀ n' : u.Idx, d.resultIdx? n' idx = some i → n' = n) :
    Host.scatter d (fun _ b => b) x idx upd i = upd n := by
  unfold Host.scatter
  have key := foldl_obs_set_once
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (val := fun m => upd (u.rowMajor.symm m))
    (fun r m h => step_hit d idx upd i r m h)
    (fun r m h => step_miss d idx upd i r m h)
    (u.rowMajor n) (by show d.resultIdx? (u.rowMajor.symm (u.rowMajor n)) idx = some i
                       rw [Equiv.symm_apply_apply]; exact hn)
    (List.finRange u.numel) x (List.nodup_finRange _) (List.mem_finRange _)
    (fun m _ hm => by
      have := huniq (u.rowMajor.symm m) hm
      exact (Equiv.symm_apply_eq _).1 this)
  simp only [Equiv.symm_apply_apply] at key
  exact key

/-- A scatter whose combiner keeps the update, at a result index `i` on which no update index
    lands: the result's element there is the operand's. -/
theorem scatter_set_miss (d : ScatterDims s si u) (x : s.Idx → α) (idx : IVec si w) (upd : u.Idx → α)
    (i : s.Idx) (hmiss : ∀ n : u.Idx, d.resultIdx? n idx ≠ some i) :
    Host.scatter d (fun _ b => b) x idx upd i = x i := by
  unfold Host.scatter
  exact foldl_obs_untouched
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (fun r m h => step_miss d idx upd i r m h)
    (List.finRange u.numel) x (fun m _ => hmiss (u.rowMajor.symm m))

end Scatter

end Cert.Lib
-- ==== Proof.KernelRun.lean ====
/-
  The kernel program's result, read back: it is `Gcn.result` of the argument arrays.

  Before the grid runs, the host lays the arguments out for it: each bias vector becomes a one-row array; the last
  weight matrix, which has ONE column, is written into column 0 of a 128 × 128 array of zeros; its one bias is
  repeated along a row of 128.  The grid then leaves, in row `(g, 0)` of a `[64, 1, 128]` array, the logistic function of
  a 128-wide linear layer of graph `g`'s hidden vector against that padded matrix and row.  After the grid the host
  keeps entry 0 of each row.  Entry 0 sees only column 0 of the padded matrix — the true weight column — and entry
  0 of the repeated bias — the true bias —, so what is kept is the graph's score; the 127 padding columns are never
  read by it.
-/
import proofs.«111874_g85968065397282_cont_sun_m_961_2_alg».proof.Proof.Gen.KernelIdeal.Frame
import proofs.«111874_g85968065397282_cont_sun_m_961_2_alg».proof.Proof.KernelPay
import proofs.«111874_g85968065397282_cont_sun_m_961_2_alg».proof.Proof.KernelBlocks
import proofs.«111874_g85968065397282_cont_sun_m_961_2_alg».proof.Proof.GcnScore
import proofs.«111874_g85968065397282_cont_sun_m_961_2_alg».proof.Proof.LibScatterSet
import Idealize.ShloMosaic.Lib.Pipeline.Value
import Idealize.ShloMosaic.Lib.StableHlo.Run
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the grid leaves in its output array -/

/-- Graph `g`'s hidden vector, from the arrays as the grid finds them. -/
abbrev hiddenAt (c : Dev nD) (g : Fin 64) : Fin 128 → EReal :=
  hidden (slab (V m c main_arg0 : S64x512x128.Idx → EReal) g) (slab (V m c main_arg1 : S64x512x512.Idx → EReal) g)
    (mat (V m c main_arg2 : S128x128.Idx → EReal)) (row (V m c main_v6 : S1x128.Idx → EReal))
    (mat (V m c main_arg4 : S128x128.Idx → EReal)) (row (V m c main_v7 : S1x128.Idx → EReal))
    (mat (V m c main_arg6 : S128x128.Idx → EReal)) (row (V m c main_v8 : S1x128.Idx → EReal))
    (mat (V m c main_arg8 : S128x128.Idx → EReal)) (row (V m c main_v9 : S1x128.Idx → EReal))
    (mat (V m c main_arg10 : S128x128.Idx → EReal)) (row (V m c main_v10 : S1x128.Idx → EReal))

/-- The grid's output array: row `(g, 0)` is the logistic function of the 128-wide last layer of graph `g`'s hidden
    vector, against the padded weight array and the repeated bias row. -/
def gridOut (c : Dev nD) : S64x1x128.Idx → EReal := fun i =>
  Ideal.logistic (dense (hiddenAt m c (i 0)) (mat (V m c main_v3 : S128x128.Idx → EReal))
    (row (V m c main_v5 : S1x128.Idx → EReal)) (i 2))

/-- WHAT POINT `t` WRITES BACK is block `t` of `gridOut`: the step's head over its three layers, each block read
    off its array. -/
theorem flushed_eq (c : Dev nD) (t : Fin cfg0.N) :
    (dats m 0 c).flushed 14 t = ((cfg0.win 14).blk t).view.read (Elt Ideal) (gridOut m c) := by
  have ht : t.val < 64 := lt_of_lt_of_eq t.isLt N_0
  show (cfg0.win 14).cut (grid0.coords t) ((dats m 0 c).after 14 t) = _
  rw [after0_14]
  unfold out0_14
  rw [View.canon_unit_zero hz3]
  simp only [View.ld_unit_zero (S := S1x512x512) hz3, View.ld_unit_zero (S := S1x512x128) hz3,
    View.ld_unit_zero (S := S128x128) hz2, View.ld_unit_zero (S := S1x128) hz2]
  funext y
  obtain ⟨u, v, q, rfl⟩ : ∃ (u v : Fin 1) (q : Fin 128), y = ix3 u v q := ⟨y 0, y 1, y 2, eq_ix3 y⟩
  show k0_pay1 (F := Ideal) _ _ _ _ _ _ _ (ix3 u v q) = gridOut m c (((cfg0.win 14).blk t).view.emb (ix3 u v q))
  rw [emb_out t ht u v q]
  refine (pay1_apply _ _ _ _ _ _ _ u v q).trans ?_
  rw [pay2_mat, blk_x m c t ht, blk_adj m c t ht, blk_w0, blk_w1, blk_w2, blk_b0, blk_b1, blk_b2, blk_wr, blk_br,
    blk_wf, blk_bf, blk_wl, blk_bl]
  rfl

/-- Every row of the output array is in some point's block: row `(g, 0)` is in point `g`'s. -/
theorem covered (i : S64x1x128.Idx) :
    ∃ t : Fin cfg0.N, (cfg0.win 14).flush t = true ∧ i ∈ ((cfg0.win 14).blk t).view.set := by
  have h0 : (i 0).val < 64 := (i 0).isLt
  have h1 : (i 1).val < 1 := (i 1).isLt
  have h2 : (i 2).val < 128 := (i 2).isLt
  have hN : (i 0).val < cfg0.N := lt_of_lt_of_eq h0 N_0.symm
  refine ⟨⟨(i 0).val, hN⟩, flush0_14 _, ?_⟩
  obtain ⟨-, -, ⟨e0, e1, e2⟩⟩ := idx_batched (⟨(i 0).val, hN⟩ : Fin cfg0.N)
  have e0' : win0_14.index ⟨(i 0).val, hN⟩ (0 : Fin 3) = (i 0).val := e0
  show i ∈ ((View.whole main_v11).slice (win0_14.rect ⟨(i 0).val, hN⟩)).set
  rw [View.set_slice_whole, Rect.mem_set_unit]
  intro a
  match a with
  | ⟨0, _⟩ => show win0_14.index ⟨(i 0).val, hN⟩ (0 : Fin 3) * 1 ≤ (i 0).val ∧ (i 0).val < win0_14.index ⟨(i 0).val, hN⟩ (0 : Fin 3) * 1 + 1; omega
  | ⟨1, _⟩ => show win0_14.index ⟨(i 0).val, hN⟩ (1 : Fin 3) * 1 ≤ (i 1).val ∧ (i 1).val < win0_14.index ⟨(i 0).val, hN⟩ (1 : Fin 3) * 1 + 1; omega
  | ⟨2, _⟩ => show win0_14.index ⟨(i 0).val, hN⟩ (2 : Fin 3) * 128 ≤ (i 2).val ∧ (i 2).val < win0_14.index ⟨(i 0).val, hN⟩ (2 : Fin 3) * 128 + 128; omega

/-- So the output array ends holding `gridOut`. -/
theorem final_out (c : Dev nD) : (dats m 0 c).arrAt 14 cfg0.N = gridOut m c :=
  (dats m 0 c).arrAt_eq_of_cover 14 (gridOut m c) (fun t _ => flushed_eq m c t) covered

/-! ## The arrays the host prepares for the grid -/

/-- A bias vector laid out as one row. -/
theorem V_b0 (c : Dev nD) : (V m c main_v6 : S1x128.Idx → EReal) = shapeCast S1x128 (m ((c : Thread nD τ).loc main_arg3)) shapeCasts_S128_S1x128 := by
  show StableHlo.after hostOps0 (fun b => m (c, b)) (Proc.devRef .tc main_v6) = _
  after_results
  rfl
theorem V_b1 (c : Dev nD) : (V m c main_v7 : S1x128.Idx → EReal) = shapeCast S1x128 (m ((c : Thread nD τ).loc main_arg5)) shapeCasts_S128_S1x128 := by
  show StableHlo.after hostOps0 (fun b => m (c, b)) (Proc.devRef .tc main_v7) = _
  after_results
  rfl
theorem V_b2 (c : Dev nD) : (V m c main_v8 : S1x128.Idx → EReal) = shapeCast S1x128 (m ((c : Thread nD τ).loc main_arg7)) shapeCasts_S128_S1x128 := by
  show StableHlo.after hostOps0 (fun b => m (c, b)) (Proc.devRef .tc main_v8) = _
  after_results
  rfl
theorem V_br (c : Dev nD) : (V m c main_v9 : S1x128.Idx → EReal) = shapeCast S1x128 (m ((c : Thread nD τ).loc main_arg9)) shapeCasts_S128_S1x128 := by
  show StableHlo.after hostOps0 (fun b => m (c, b)) (Proc.devRef .tc main_v9) = _
  after_results
  rfl
theorem V_bf (c : Dev nD) : (V m c main_v10 : S1x128.Idx → EReal) = shapeCast S1x128 (m ((c : Thread nD τ).loc main_arg11)) shapeCasts_S128_S1x128 := by
  show StableHlo.after hostOps0 (fun b => m (c, b)) (Proc.devRef .tc main_v10) = _
  after_results
  rfl

/-- The last weight matrix's one column, written into column 0 of an array of zeros. -/
theorem V_wl (c : Dev nD) : (V m c main_v3 : S128x128.Idx → EReal)
    = Host.scatter scatter_S128x128_S1_S128_0_1_1_0 (fun _ b => b)
        (broadcastInDim S128x128 ![] bcast_S_S128x128 (constant (F := Ideal) S_ .f32 0x00000000#32))
        (broadcastInDim S1 ![] bcast_S_S1 (constantI S_ 32 0#32))
        (shapeCast S128 (m ((c : Thread nD τ).loc main_arg12)) shapeCasts_S128x1_S128) := by
  show StableHlo.after hostOps0 (fun b => m (c, b)) (Proc.devRef .tc main_v3) = _
  after_results
  rfl

/-- The last bias, repeated along a row. -/
theorem V_bl (c : Dev nD) : (V m c main_v5 : S1x128.Idx → EReal)
    = broadcastInDim S1x128 ![0, 1] bcast_S1x1_S1x128_0_1 (shapeCast S1x1 (m ((c : Thread nD τ).loc main_arg13)) shapeCasts_S1_S1x1) := by
  show StableHlo.after hostOps0 (fun b => m (c, b)) (Proc.devRef .tc main_v5) = _
  after_results
  rfl

/-- A vector laid out as one row reads back as the vector. -/
theorem row_of_vec (v : S128.Idx → EReal) : row (shapeCast S1x128 v shapeCasts_S128_S1x128) = vec v := by
  funext f
  exact shapeCast_a_1a_apply v shapeCasts_S128_S1x128 (0 : Fin 1) f

/-! ## Column 0 of the padded weight array -/

abbrev sd : ScatterDims S128x128 S1 S128 := scatter_S128x128_S1_S128_0_1_1_0

/-- With every scatter index zero, no update's window starts off the origin. -/
theorem start_zero (j : S128.Idx) (idx : IVec S1 32) (hidx : ∀ b, idx b = 0#32) (a : Fin S128x128.rank) :
    sd.start j idx a = 0 := by
  unfold ScatterDims.start
  split
  · rw [hidx]; rfl
  · rfl

theorem window_0 (j : S128.Idx) : sd.window j (0 : Fin 2) = (j 0).val := rfl
theorem window_1 (j : S128.Idx) : sd.window j (1 : Fin 2) = 0 := rfl

/-- Update `j` lands on row `j` of column 0. -/
theorem lands (j : S128.Idx) (idx : IVec S1 32) (hidx : ∀ b, idx b = 0#32) :
    sd.resultIdx? j idx = some (ix2 (j 0) (0 : Fin 128)) := by
  have hj : (j 0).val < 128 := (j 0).isLt
  unfold ScatterDims.resultIdx?
  have h : ∀ a, 0 ≤ sd.start j idx a + sd.window j a ∧ sd.start j idx a + sd.window j a < S128x128.size a := by
    intro a
    rw [start_zero j idx hidx a]
    match a with
    | ⟨0, _⟩ => show 0 ≤ (0 : Int) + ((sd.window j (0 : Fin 2) : Nat) : Int) ∧ (0 : Int) + ((sd.window j (0 : Fin 2) : Nat) : Int) < ((128 : Nat) : Int); rw [window_0]; omega
    | ⟨1, _⟩ => show 0 ≤ (0 : Int) + ((sd.window j (1 : Fin 2) : Nat) : Int) ∧ (0 : Int) + ((sd.window j (1 : Fin 2) : Nat) : Int) < ((128 : Nat) : Int); rw [window_1]; omega
  rw [dif_pos h]
  refine congrArg some (funext fun a => Fin.ext ?_)
  show (sd.start j idx a + sd.window j a).toNat = _
  rw [start_zero j idx hidx a]
  match a with
  | ⟨0, _⟩ => show ((0 : Int) + ((sd.window j (0 : Fin 2) : Nat) : Int)).toNat = (j 0).val; rw [window_0]; omega
  | ⟨1, _⟩ => show ((0 : Int) + ((sd.window j (1 : Fin 2) : Nat) : Int)).toNat = 0; rw [window_1]; omega

/-- So entry `(k, 0)` of the scattered array is update `k`, whatever the array held before: exactly one update
    lands there. -/
theorem scatter_col0 (x : S128x128.Idx → EReal) (idx : IVec S1 32) (hidx : ∀ b, idx b = 0#32) (upd : S128.Idx → EReal)
    (k : Fin 128) : Host.scatter sd (fun _ b => b) x idx upd (ix2 k (0 : Fin 128)) = upd (ix1 k) :=
  Cert.Lib.scatter_set_hit sd x idx upd (ix2 k (0 : Fin 128)) (ix1 k) (lands (ix1 k) idx hidx) fun n' hn' => by
    rw [lands n' idx hidx] at hn'
    have h0 : n' 0 = k := congrFun (Option.some.inj hn') 0
    exact (eq_ix1 n').trans (congrArg ix1 h0)

/-- Column 0 of the padded weight array is the last weight matrix's one column. -/
theorem wl_col0 (c : Dev nD) (k : Fin 128) :
    (V m c main_v3 : S128x128.Idx → EReal) (ix2 k (0 : Fin 128))
      = (m ((c : Thread nD τ).loc main_arg12) : S128x1.Idx → EReal) (ix2 k (0 : Fin 1)) := by
  rw [V_wl]
  refine (scatter_col0 _ (broadcastInDim S1 ![] bcast_S_S1 (constantI S_ 32 0#32)) (fun _ => rfl) _ k).trans ?_
  exact shapeCast_apply _ shapeCasts_S128x1_S128 (ix1 k) (ix2 k (0 : Fin 1)) (by
    rw [Shape.rowMajor_val_two, Shape.rowMajor_val_one]
    show k.val * 1 + 0 = k.val
    omega)

/-- Entry 0 of the repeated bias row is the last bias. -/
theorem bl_0 (c : Dev nD) :
    (V m c main_v5 : S1x128.Idx → EReal) (ix2 (0 : Fin 1) (0 : Fin 128))
      = (m ((c : Thread nD τ).loc main_arg13) : S1.Idx → EReal) (ix1 (0 : Fin 1)) := by
  rw [V_bl]
  refine (broadcastInDim_apply _ bcast_S1x1_S1x128_0_1 _ (ix2 (0 : Fin 1) (0 : Fin 128)) (ix2 (0 : Fin 1) (0 : Fin 1)) fun a => ?_).trans ?_
  · match a with
    | ⟨0, _⟩ => rfl
    | ⟨1, _⟩ => rfl
  · exact shapeCast_apply _ shapeCasts_S1_S1x1 (ix2 (0 : Fin 1) (0 : Fin 1)) (ix1 (0 : Fin 1)) (by
      rw [Shape.rowMajor_val_two, Shape.rowMajor_val_one]
      rfl)

/-! ## The kept entries are the scores -/

/-- Graph `g`'s hidden vector as the grid finds it is the one of the argument arrays: the host only laid the bias
    vectors out as rows. -/
theorem hiddenAt_eq (c : Dev nD) (g : Fin 64) :
    hiddenAt m c g
      = hiddenOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) g := by
  show hidden _ _ _ _ _ _ _ _ _ _ _ _ = hidden _ _ _ _ _ _ _ _ _ _ _ _
  rw [V_b0, V_b1, V_b2, V_br, V_bf, row_of_vec, row_of_vec, row_of_vec, row_of_vec, row_of_vec,
    V_main_arg0, V_main_arg1, V_main_arg2, V_main_arg4, V_main_arg6, V_main_arg8, V_main_arg10]

/-- Entry `(g, 0, 0)` of the grid's output is graph `g`'s score: column 0 of the padded weights and entry 0 of the
    repeated bias are the true last layer. -/
theorem gridOut_score (c : Dev nD) (g : Fin 64) :
    gridOut m c (ix3 g (0 : Fin 1) (0 : Fin 128))
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (ix2 g (0 : Fin 1)) :=
  congrArg Ideal.logistic (congrArg₂ (· + ·)
    (Finset.sum_congr rfl fun k _ => congrArg₂ (· * ·) (congrFun (hiddenAt_eq m c g) k) (wl_col0 m c k))
    (bl_0 m c))

end Cert.KernelIdeal.Hand

end
-- ==== Proof.KernelResult.lean ====
/-
  The kernel program's run, read: it ends with `Gcn.result` of its arguments in its result array, the arguments
  unchanged.

  After the grid the host slices entry 0 out of each 128-wide row of the grid's output and drops the two unit axes:
  entry `(g, 0)` of the result is entry `(g, 0, 0)` of the grid's output, which is graph `g`'s score.
-/
import proofs.«111874_g85968065397282_cont_sun_m_961_2_alg».proof.Proof.KernelRun

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

variable (m : (ℓ : Loc nD τ sig) → Buf (Elt Ideal) ℓ) (ρ : Dev nD → PrngReg)

/-- What the host's two closing operations leave in the result array. -/
theorem tail_eq (c : Dev nD) :
    Pipeline.afterTail₀ cfgs (dats m) 0 (V0 m) [hostOps1] c main_v13
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hW : Pipeline.withArrays (cfgs 0).spec c (V0 m c) (fun w => (dats m 0 c).arrAt w (cfgs 0).N) (Proc.devRef .tc main_v11)
      = gridOut m c :=
    (Pipeline.withArrays_arr spec0 launch0.win.arr_inj c _ _ 14).trans (final_out m c)
  unfold Pipeline.afterTail₀
  show StableHlo.after hostOps1 _ (Proc.devRef .tc main_v13) = _
  after_results
  funext i
  obtain ⟨g, u, rfl⟩ : ∃ (g : Fin 64) (u : Fin 1), i = ix2 g u := ⟨i 0, i 1, eq_ix2 i⟩
  obtain rfl : u = 0 := Subsingleton.elim _ _
  show shapeCast S64x1 (extractStridedSlice S64x1x1 ![0, 0, 0] (_ : S64x1x128.Idx → EReal) slices_S64x1x128_S64x1x1_0_0_0) shapeCasts_S64x1x1_S64x1
    (ix2 g (0 : Fin 1)) = _
  refine (shapeCast_apply _ shapeCasts_S64x1x1_S64x1 (ix2 g (0 : Fin 1)) (ix3 g (0 : Fin 1) (0 : Fin 1)) (by
    rw [Shape.rowMajor_val_three, Shape.rowMajor_val_two]
    show (g.val * 1 + 0) * 1 + 0 = g.val * 1 + 0
    omega)).trans ?_
  refine (extractStridedSlice_apply _ _ slices_S64x1x128_S64x1x1_0_0_0 (ix3 g (0 : Fin 1) (0 : Fin 1))
    (ix3 g (0 : Fin 1) (0 : Fin 128)) fun a => ?_).trans ?_
  · match a with
    | ⟨0, _⟩ => show g.val = 0 + g.val; omega
    | ⟨1, _⟩ => rfl
    | ⟨2, _⟩ => rfl
  · exact (congrFun hW _).trans (gridOut_score m c g)

/-- THE KERNEL PROGRAM'S RUN: every weakly fair execution ends with the result array at `Gcn.result` of the
    arguments and the arguments unchanged. -/
theorem run : θ_run defs (onTc (τ := τ) (main (F := Ideal))) ⟨m, fun _ => 0, ρ⟩ fun r => ∀ c : Dev nD,
      r.2.mem ((c : Thread nD τ).loc main_v13) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Hand

end
-- ==== Proof.RefSide.lean ====
/-
  The reference, read back: its result array is `Gcn.result` of its arguments.

  The reference works on the whole batch at once.  Stage by stage its arrays, cut at graph `g`, are `GcnSpec`'s
  functions of the graph's slabs: a batched product against the shared weights and a batched product with the
  adjacency, the bias broadcast to every node, and the maximum with zero are one `layer`; the sum over the node
  axis is `pool`; the two products of the head with their broadcast biases are `dense`; and the closing
  `1 / (1 + exp (-z))` is the logistic function of the last product's one entry.
-/
import proofs.«111874_g85968065397282_cont_sun_m_961_2_alg».proof.Proof.Gen.ReferenceIdeal.Read
import proofs.«111874_g85968065397282_cont_sun_m_961_2_alg».proof.Proof.GcnScore
import Idealize.ShloMosaic.Lib.IdealHost

noncomputable section

open scoped BigOperators

namespace Cert.ReferenceIdeal.Hand

open Idealize.ShloMosaic Idealize.ShloMosaic.ValueIdx Cert.ReferenceIdeal Cert.ReferenceIdeal.Read Cert.Gcn

/-- Two index functions of rank 1, 2 or 3 agree when their coordinates do. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- ONE LAYER of the reference on ANY incoming activations `Hin`, cut at graph `g`: the graph's `layer`. -/
theorem layer_slab (Hin : FVec Ideal S64x512x128 .f32) (A : FVec Ideal S64x512x512 .f32) (W : FVec Ideal S128x128 .f32)
    (b : FVec Ideal S128 .f32) (g : Fin 64) :
    slab (val_main_v5 (F := Ideal) Hin A W b) g = layer (slab A g) (mat W) (vec b) (slab Hin g) := by
  funext n f
  show val_main_v5 (F := Ideal) Hin A W b (ix3 g n f) = _
  rw [val_main_v5_apply, val_main_v4_apply, val_main_v1_apply, val_main_v3_apply, val_main_v2_apply,
    val_main_call0_v0_apply, val_main_call0_cst_apply]
  simp only [val_main_v0_apply]
  have e1 : ∀ k, lidx_main_v1 (ix3 g n f) k = ix3 g n k := fun k => by idx3
  have e2 : ∀ k k', lidx_main_v0 (ridx_main_v1 (ix3 g n f) k) k' = ix3 g k k' := fun k k' => by idx3
  have e3 : ∀ k k', ridx_main_v0 (ridx_main_v1 (ix3 g n f) k) k' = ix2 k' f := fun k k' => by idx2
  have e4 : idx_main_v2 (idx_main_v3 (ix3 g n f)) = ix1 f := by idx1
  simp only [e1, e2, e3, e4]
  show max (_ + _) (Ideal.ofBits .f32 0x00000000#32) = _
  rw [Ideal.ofBits_zero_f32]
  rfl

/-- The second and third layers are the first layer's operations again, on the previous layer's result. -/
theorem v11_eq (x0 : FVec Ideal S64x512x128 .f32) (x1 : FVec Ideal S64x512x512 .f32) (x2 : FVec Ideal S128x128 .f32)
    (x3 : FVec Ideal S128 .f32) (x4 : FVec Ideal S128x128 .f32) (x5 : FVec Ideal S128 .f32) :
    val_main_v11 (F := Ideal) x0 x1 x2 x3 x4 x5 = val_main_v5 (F := Ideal) (val_main_v5 (F := Ideal) x0 x1 x2 x3) x1 x4 x5 := rfl
theorem v17_eq (x0 : FVec Ideal S64x512x128 .f32) (x1 : FVec Ideal S64x512x512 .f32) (x2 : FVec Ideal S128x128 .f32)
    (x3 : FVec Ideal S128 .f32) (x4 : FVec Ideal S128x128 .f32) (x5 : FVec Ideal S128 .f32) (x6 : FVec Ideal S128x128 .f32)
    (x7 : FVec Ideal S128 .f32) :
    val_main_v17 (F := Ideal) x0 x1 x2 x3 x4 x5 x6 x7
      = val_main_v5 (F := Ideal) (val_main_v11 (F := Ideal) x0 x1 x2 x3 x4 x5) x1 x6 x7 := rfl

variable (x0 : FVec Ideal S64x512x128 .f32) (x1 : FVec Ideal S64x512x512 .f32) (x2 : FVec Ideal S128x128 .f32)
  (x3 : FVec Ideal S128 .f32) (x4 : FVec Ideal S128x128 .f32) (x5 : FVec Ideal S128 .f32) (x6 : FVec Ideal S128x128 .f32)
  (x7 : FVec Ideal S128 .f32) (x8 : FVec Ideal S128x128 .f32) (x9 : FVec Ideal S128 .f32) (x10 : FVec Ideal S128x128 .f32)
  (x11 : FVec Ideal S128 .f32) (x12 : FVec Ideal S128x1 .f32) (x13 : FVec Ideal S1 .f32)

/-- The sum over the node axis, cut at graph `g`: the zero it starts from adds nothing. -/
theorem pool_mat (g : Fin 64) :
    mat (val_main_v18 (F := Ideal) x0 x1 x2 x3 x4 x5 x6 x7) g = pool (slab (val_main_v17 (F := Ideal) x0 x1 x2 x3 x4 x5 x6 x7) g) := by
  funext f
  show val_main_v18 (F := Ideal) x0 x1 x2 x3 x4 x5 x6 x7 (ix2 g f) = _
  rw [val_main_v18_apply, val_main_cst_apply]
  show Ideal.ofBits .f32 0x00000000#32 + _ = _
  rw [Ideal.ofBits_zero_f32, zero_add]
  exact Finset.sum_congr rfl fun k _ => congrArg _ (by idx3)

/-- The read-out, cut at graph `g`. -/
theorem readout_mat (g : Fin 64) :
    mat (val_main_v22 (F := Ideal) x0 x1 x2 x3 x4 x5 x6 x7 x8 x9) g
      = dense (mat (val_main_v18 (F := Ideal) x0 x1 x2 x3 x4 x5 x6 x7) g) (mat x8) (vec x9) := by
  funext f
  show val_main_v22 (F := Ideal) x0 x1 x2 x3 x4 x5 x6 x7 x8 x9 (ix2 g f) = _
  rw [val_main_v22_apply, val_main_v19_apply, val_main_v21_apply, val_main_v20_apply]
  have e1 : ∀ k, lidx_main_v19 (ix2 g f) k = ix2 g k := fun k => by idx2
  have e2 : ∀ k, ridx_main_v19 (ix2 g f) k = ix2 k f := fun k => by idx2
  have e3 : idx_main_v20 (idx_main_v21 (ix2 g f)) = ix1 f := by idx1
  simp only [e1, e2, e3]
  rfl

/-- The head's first layer before its relu, cut at graph `g`. -/
theorem fc0_mat (g : Fin 64) :
    mat (val_main_v26 (F := Ideal) x0 x1 x2 x3 x4 x5 x6 x7 x8 x9 x10 x11) g
      = dense (mat (val_main_v22 (F := Ideal) x0 x1 x2 x3 x4 x5 x6 x7 x8 x9) g) (mat x10) (vec x11) := by
  funext f
  show val_main_v26 (F := Ideal) x0 x1 x2 x3 x4 x5 x6 x7 x8 x9 x10 x11 (ix2 g f) = _
  rw [val_main_v26_apply, val_main_v23_apply, val_main_v25_apply, val_main_v24_apply]
  have e1 : ∀ k, lidx_main_v23 (ix2 g f) k = ix2 g k := fun k => by idx2
  have e2 : ∀ k, ridx_main_v23 (ix2 g f) k = ix2 k f := fun k => by idx2
  have e3 : idx_main_v24 (idx_main_v25 (ix2 g f)) = ix1 f := by idx1
  simp only [e1, e2, e3]
  rfl

/-- Its relu. -/
theorem relu_mat (g : Fin 64) :
    mat (val_main_v27 (F := Ideal) x0 x1 x2 x3 x4 x5 x6 x7 x8 x9 x10 x11) g
      = relu (mat (val_main_v26 (F := Ideal) x0 x1 x2 x3 x4 x5 x6 x7 x8 x9 x10 x11) g) := by
  funext f
  show val_main_v27 (F := Ideal) x0 x1 x2 x3 x4 x5 x6 x7 x8 x9 x10 x11 (ix2 g f) = _
  rw [val_main_v27_apply, val_main_call3_v0_apply, val_main_call3_cst_apply]
  show max _ (Ideal.ofBits .f32 0x00000000#32) = _
  rw [Ideal.ofBits_zero_f32]
  rfl

/-- The last product, its bias, and `1 / (1 + exp (-z))`: the score of the hidden vector. -/
theorem result_apply (g : Fin 64) (u : Fin 1) :
    val_main_v37 (F := Ideal) x0 x1 x2 x3 x4 x5 x6 x7 x8 x9 x10 x11 x12 x13 (ix2 g u)
      = score (mat (val_main_v27 (F := Ideal) x0 x1 x2 x3 x4 x5 x6 x7 x8 x9 x10 x11) g)
          (fun k => x12 (ix2 k (0 : Fin 1))) (x13 (ix1 (0 : Fin 1))) := by
  obtain rfl : u = 0 := Subsingleton.elim _ _
  rw [val_main_v37_apply, val_main_v36_apply, val_main_cst_1_apply, val_main_v35_apply, val_main_v34_apply,
    val_main_cst_0_apply, val_main_v33_apply, val_main_v32_apply, val_main_v31_apply, val_main_v28_apply,
    val_main_v30_apply, val_main_v29_apply]
  have e1 : ∀ k, lidx_main_v28 (ix2 g (0 : Fin 1)) k = ix2 g k := fun k => by idx2
  have e2 : ∀ k, ridx_main_v28 (ix2 g (0 : Fin 1)) k = ix2 k (0 : Fin 1) := fun k => by idx2
  have e3 : idx_main_v29 (idx_main_v30 (ix2 g (0 : Fin 1))) = ix1 (0 : Fin 1) := by idx1
  simp only [e1, e2, e3, Ideal.ofBits_def, Ideal.ofBits_one_f32]
  rfl

/-- THE REFERENCE'S RESULT is `Gcn.result` of its arguments. -/
theorem ref_eq : val_main_v37 (F := Ideal) x0 x1 x2 x3 x4 x5 x6 x7 x8 x9 x10 x11 x12 x13
    = result x0 x1 x2 x3 x4 x5 x6 x7 x8 x9 x10 x11 x12 x13 := by
  funext i
  obtain ⟨g, u, rfl⟩ : ∃ (g : Fin 64) (u : Fin 1), i = ix2 g u := ⟨i 0, i 1, eq_ix2 i⟩
  rw [result_apply, relu_mat, fc0_mat, readout_mat, pool_mat, v17_eq, layer_slab, v11_eq, layer_slab, layer_slab]
  rfl

end Cert.ReferenceIdeal.Hand

end
-- ==== Proof.lean ====
/-
  The certificate of a fused graph-convolution network against its batched reference.

  Both programs score 64 graphs.  For each graph: three layers `relu (A · (H · W) + b)` over its 512 nodes, the sum
  of the node features, a linear read-out, a linear layer with relu, and a last linear layer of one output through
  the logistic function.  The reference does each stage for the whole batch with batched products; the kernel
  does all stages for one graph per grid step, keeps the head 128 wide by padding the last weight column with
  zero columns and repeating the last bias, and the host afterwards keeps entry 0 of each row.

  Over the extended reals the two are one function of the arguments, `Gcn.result`: every stage is the same finite sum
  of products, maximum with zero, or logistic function on both sides (the kernel's logistic operation and the
  reference's `1 / (1 + exp (-z))` are one function there), and entry 0 of the padded head reads only the true weight
  column and the true bias.  No law that fails at an infinity is needed, so the inputs' finiteness is never used.

  The two kernel frames are the generated ones; the reference's frame is its generated run with the result dropped;
  nothing was rewritten by the idealization, so there is nothing to preserve.
-/
import proofs.«111874_g85968065397282_cont_sun_m_961_2_alg».proof.Defs
import proofs.«111874_g85968065397282_cont_sun_m_961_2_alg».proof.Proof.Gen.Kernel
import proofs.«111874_g85968065397282_cont_sun_m_961_2_alg».proof.Proof.Gen.Kernel.Skeleton
import proofs.«111874_g85968065397282_cont_sun_m_961_2_alg».proof.Proof.Gen.Kernel.Launch
import proofs.«111874_g85968065397282_cont_sun_m_961_2_alg».proof.Proof.Gen.Kernel.Points
import proofs.«111874_g85968065397282_cont_sun_m_961_2_alg».proof.Proof.Gen.Kernel.Frame
import proofs.«111874_g85968065397282_cont_sun_m_961_2_alg».proof.Proof.Gen.KernelIdeal
import proofs.«111874_g85968065397282_cont_sun_m_961_2_alg».proof.Proof.Gen.KernelIdeal.Skeleton
import proofs.«111874_g85968065397282_cont_sun_m_961_2_alg».proof.Proof.Gen.KernelIdeal.Launch
import proofs.«111874_g85968065397282_cont_sun_m_961_2_alg».proof.Proof.Gen.KernelIdeal.Points
import proofs.«111874_g85968065397282_cont_sun_m_961_2_alg».proof.Proof.Gen.KernelIdeal.Frame
import proofs.«111874_g85968065397282_cont_sun_m_961_2_alg».proof.Proof.Gen.ReferenceIdeal
import proofs.«111874_g85968065397282_cont_sun_m_961_2_alg».proof.Proof.Gen.Pre_finite_inputs
import proofs.«111874_g85968065397282_cont_sun_m_961_2_alg».proof.Proof.Gen.ReferenceIdeal.Run
import proofs.«111874_g85968065397282_cont_sun_m_961_2_alg».proof.Proof.Gen.ReferenceIdeal.Read
import proofs.«111874_g85968065397282_cont_sun_m_961_2_alg».proof.Proof.KernelResult
import proofs.«111874_g85968065397282_cont_sun_m_961_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `Gcn.result` of arguments that agree. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [a0, a1, a2, a3, a4, a5, a6, a7, a8, a9, a10, a11, a12, a13]
  exact (Cert.ReferenceIdeal.Read.val_main_v37_eq _ _ _ _ _ _ _ _ _ _ _ _ _ _).trans
    (Cert.ReferenceIdeal.Hand.ref_eq _ _ _ _ _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
